-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S128x64 : Shape := ⟨2, ![128, 64]⟩
abbrev S1x1200000 : Shape := ⟨2, ![1, 1200000]⟩
abbrev S_ : Shape := ⟨0, ![]⟩

class Facts : Prop where
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_v32 : IVec S_ 1) (main_v33 : FVec F S64 .f32) (main_cst_11 : FVec F S_ .f32) : IVec S_ 1 :=
  let main_v34 : FVec F S64 .f32 := broadcastInDim S64 ![] bcast_S_S64 main_cst_11
  let main_v35 : IVec S64 1 := cmpf .olt main_v33 main_v34
  let main_c_12 : IVec S_ 1 := constantI S_ 1 1#1
  let main_v36 : IVec S_ 1 := (fun x v => Host.reduce IntOp.andi x v reducesTo_S64_S_d0 h_S_) main_v35 main_c_12
  let main_v37 : IVec S_ 1 := andi main_v32 main_v36
  main_v37

def fn_part1 {F : FTy → Type} [FloatOps F] (main_arg3 : FVec F S64x64 .f32) (main_arg4 : FVec F S64 .f32) (main_arg5 : FVec F S128x64 .f32) (main_arg6 : FVec F S64 .f32) (main_v12 : IVec S_ 1) (main_v16 : IVec S_ 1) : IVec S_ 1 :=
  let main_v17 : IVec S_ 1 := andi main_v12 main_v16
  let main_v18 : FVec F S64x64 .f32 := Host.absf main_arg3
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_c_6 : IVec S_ 1 := constantI S_ 1 1#1
  let main_v21 : IVec S_ 1 := (fun x v => Host.reduce IntOp.andi x v reducesTo_S64x64_S_d0_1 h_S_) main_v20 main_c_6
  let main_v22 : IVec S_ 1 := andi main_v17 main_v21
  let main_v23 : FVec F S64 .f32 := Host.absf main_arg4
  let main_cst_7 : FVec F S_ .f32 := constant S_ .f32 0x7F800000#32
  let main_v24 : FVec F S64 .f32 := broadcastInDim S64 ![] bcast_S_S64 main_cst_7
  let main_v25 : IVec S64 1 := cmpf .olt main_v23 main_v24
  let main_c_8 : IVec S_ 1 := constantI S_ 1 1#1
  let main_v26 : IVec S_ 1 := (fun x v => Host.reduce IntOp.andi x v reducesTo_S64_S_d0 h_S_) main_v25 main_c_8
  let main_v27 : IVec S_ 1 := andi main_v22 main_v26
  let main_v28 : FVec F S128x64 .f32 := Host.absf main_arg5
  let main_cst_9 : FVec F S_ .f32 := constant S_ .f32 0x7F800000#32
  let main_v29 : FVec F S128x64 .f32 := broadcastInDim S128x64 ![] bcast_S_S128x64 main_cst_9
  let main_v30 : IVec S128x64 1 := cmpf .olt main_v28 main_v29
  let main_c_10 : IVec S_ 1 := constantI S_ 1 1#1
  let main_v31 : IVec S_ 1 := (fun x v => Host.reduce IntOp.andi x v reducesTo_S128x64_S_d0_1 h_S_) main_v30 main_c_10
  let main_v32 : IVec S_ 1 := andi main_v27 main_v31
  let main_v33 : FVec F S64 .f32 := Host.absf main_arg6
  let main_cst_11 : FVec F S_ .f32 := constant S_ .f32 0x7F800000#32
  fn_part2 (F := F) main_v32 main_v33 main_cst_11

def fn {F : FTy → Type} [FloatOps F] (main_arg0 : FVec F S100000x64 .f32) (main_arg1 : IVec S2x1200000 32) (main_arg2 : FVec F S1200000 .f32) (main_arg3 : FVec F S64x64 .f32) (main_arg4 : FVec F S64 .f32) (main_arg5 : FVec F S128x64 .f32) (main_arg6 : FVec F S64 .f32) : IVec S_ 1 :=
  let main_v0 : IVec S1x1200000 32 := (extractStridedSlice S1x1200000 ![0, 0] · slices_S2x1200000_S1x1200000_0_0) main_arg1
  let main_v1 : IVec S1200000 32 := shapeCast S1200000 main_v0 shapeCasts_S1x1200000_S1200000
  let main_c : IVec S_ 32 := constantI S_ 32 0#32
  let main_v2 : IVec S1200000 32 := broadcastInDim S1200000 ![] bcast_S_S1200000 main_c
  let main_v3 : IVec S1200000 1 := cmpi .sge main_v1 main_v2
  let main_c_0 : IVec S_ 32 := constantI S_ 32 100000#32
  let main_v4 : IVec S1200000 32 := broadcastInDim S1200000 ![] bcast_S_S1200000 main_c_0
  let main_v5 : IVec S1200000 1 := cmpi .slt main_v1 main_v4
  let main_v6 : IVec S1200000 1 := andi main_v3 main_v5
  let main_c_1 : IVec S_ 1 := constantI S_ 1 1#1
  let main_v7 : IVec S_ 1 := (fun x v => Host.reduce IntOp.andi x v reducesTo_S1200000_S_d0 h_S_) main_v6 main_c_1
  let main_v8 : FVec F S100000x64 .f32 := Host.absf main_arg0
  let main_cst : FVec F S_ .f32 := constant S_ .f32 0x7F800000#32
  let main_v9 : FVec F S100000x64 .f32 := broadcastInDim S100000x64 ![] bcast_S_S100000x64 main_cst
  let main_v10 : IVec S100000x64 1 := cmpf .olt main_v8 main_v9
  let main_c_2 : IVec S_ 1 := constantI S_ 1 1#1
  let main_v11 : IVec S_ 1 := (fun x v => Host.reduce IntOp.andi x v reducesTo_S100000x64_S_d0_1 h_S_) main_v10 main_c_2
  let main_v12 : IVec S_ 1 := andi main_v7 main_v11
  let main_v13 : FVec F S1200000 .f32 := Host.absf main_arg2
  let main_cst_3 : FVec F S_ .f32 := constant S_ .f32 0x7F800000#32
  let main_v14 : FVec F S1200000 .f32 := broadcastInDim S1200000 ![] bcast_S_S1200000 main_cst_3
  let main_v15 : IVec S1200000 1 := cmpf .olt main_v13 main_v14
  let main_c_4 : IVec S_ 1 := constantI S_ 1 1#1
  let main_v16 : IVec S_ 1 := (fun x v => Host.reduce IntOp.andi x v reducesTo_S1200000_S_d0 h_S_) main_v15 main_c_4
  fn_part1 (F := F) main_arg3 main_arg4 main_arg5 main_arg6 main_v12 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S128x64 : Shape := ⟨2, ![128, 64]⟩
abbrev S1x1200000 : Shape := ⟨2, ![1, 1200000]⟩
abbrev S1x64 : Shape := ⟨2, ![1, 64]⟩
abbrev S10000x64 : Shape := ⟨2, ![10000, 64]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S5000 : Shape := ⟨1, ![5000]⟩

abbrev nBuf : Space → Nat
  | .hbm => 60
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S1x64, .f32⟩
  | .hbm, ⟨12, _⟩ => ⟨S100000x64, .f32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1, .i32⟩
  | .hbm, ⟨22, _⟩ => ⟨S_, .i32⟩
  | .hbm, ⟨23, _⟩ => ⟨S1200000x1, .i32⟩
  | .hbm, ⟨24, _⟩ => ⟨S1200000x1, .i1⟩
  | .hbm, ⟨25, _⟩ => ⟨S1x1, .i32⟩
  | .hbm, ⟨26, _⟩ => ⟨S1200000x1, .i32⟩
  | .hbm, ⟨27, _⟩ => ⟨S1200000x1, .i1⟩
  | .hbm, ⟨28, _⟩ => ⟨S1200000x1, .i1⟩
  | .hbm, ⟨29, _⟩ => ⟨S_, .i1⟩
  | .hbm, ⟨30, _⟩ => ⟨S1200000, .i1⟩
  | .hbm, ⟨31, _⟩ => ⟨S1200000x64, .f32⟩
  | .hbm, ⟨32, _⟩ => ⟨S1200000x64, .i1⟩
  | .hbm, ⟨33, _⟩ => ⟨S_, .f32⟩
  | .hbm, ⟨34, _⟩ => ⟨S1200000x64, .f32⟩
  | .hbm, ⟨35, _⟩ => ⟨S1200000x64, .f32⟩
  | .hbm, ⟨36, _⟩ => ⟨S1200000x1, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S_, .f32⟩
  | .hbm, ⟨44, _⟩ => ⟨S1200000, .f32⟩
  | .hbm, ⟨45, _⟩ => ⟨S_, .f32⟩
  | .hbm, ⟨46, _⟩ => ⟨S100000, .f32⟩
  | .hbm, ⟨47, _⟩ => ⟨S1200000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S64x64_S64x64 : S64x64.ShapeCasts S64x64
  broadcasts_S1x64_S5000x64 : S1x64.Broadcasts S5000x64
  reduces_S5000x64_S5000 : S5000x64.Reduces [1] S5000
  shapeCasts_S5000_S5000x1 : S5000.ShapeCasts S5000x1
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S128x64 : Shape := ⟨2, ![128, 64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S1200000x64, .f32⟩
  | .hbm, ⟨21, _⟩ => ⟨S1x64, .f32⟩
  | .hbm, ⟨22, _⟩ => ⟨S1200000x64, .f32⟩
  | .hbm, ⟨23, _⟩ => ⟨S1200000x64, .f32⟩
  | .hbm, ⟨24, _⟩ => ⟨S_, .f32⟩
  | .hbm, ⟨25, _⟩ => ⟨S1200000x64, .f32⟩
  | .hbm, ⟨26, _⟩ => ⟨S1200000x64, .f32⟩
  | .hbm, ⟨27, _⟩ => ⟨S1200000x1, .f32⟩
  | .hbm, ⟨28, _⟩ => ⟨S1200000x64, .f32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S_, .f32⟩
  | .hbm, ⟨35, _⟩ => ⟨S1200000, .f32⟩
  | .hbm, ⟨36, _⟩ => ⟨S_, .f32⟩
  | .hbm, ⟨37, _⟩ => ⟨S100000, .f32⟩
  | .hbm, ⟨38, _⟩ => ⟨S1200000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x128, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_cst : Ref sig .tc := ⟨.hbm, 51, rfl⟩
abbrev main_call1_v0 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1200000x1_S1200000x64_1_0_n_n_0_1_164_wf : GatherDims.WF S100000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefImports.lean ====
/- The reference's run and its stage-by-stage reading, gathered for the modules that speak about the reference's value. -/
import proofs.«411524_j59846074303161_3_alg».proof.Proof.Gen.ReferenceIdeal.Run
import proofs.«411524_j59846074303161_3_alg».proof.Proof.Gen.ReferenceIdeal.Read
-- ==== Proof.Spec.lean ====
/-
  The two kernels' values as whole-array functions of their operands, over extended reals.

  The first kernel maps every row of the node table through one affine layer and a rectifier:
  entry (r, q) is max(Σ_k x[r,k]·w[k,q] + b[q], 0).

  The second kernel scales each row of the aggregated messages by that row's inverse degree, applies the update
  layer split into its two 64-row halves, rectifies, and divides the row by its Euclidean norm bounded below:
  with u[r,q] = max(Σ_k x[r,k]·wx[k,q] + Σ_k (agg[r,k]·inv[r])·wa[k,q] + b[q], 0),
  entry (r, q) is u[r,q] / max(√(Σ_j u[r,j]²), ε).
-/
import proofs.«411524_j59846074303161_3_alg».proof.Proof.Gen.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal

/-- Entry (r, q) of the rectified affine layer of the node table. -/
def mlpAt (x : FVec Ideal S100000x64 .f32) (w : FVec Ideal S64x64 .f32) (b : FVec Ideal S1x64 .f32)
    (r : Fin 100000) (q : Fin 64) : EReal :=
  max ((∑ k : Fin 64, x (ix2 r k) * w (ix2 k q)) + b (ix2 (0 : Fin 1) q)) 0

/-- The rectified affine layer of the whole node table. -/
def G0 (x : FVec Ideal S100000x64 .f32) (w : FVec Ideal S64x64 .f32) (b : FVec Ideal S1x64 .f32) :
    FVec Ideal S100000x64 .f32 :=
  fun i => mlpAt x w b (i 0) (i 1)

theorem G0_apply (x : FVec Ideal S100000x64 .f32) (w : FVec Ideal S64x64 .f32) (b : FVec Ideal S1x64 .f32)
    (r : Fin 100000) (q : Fin 64) : G0 x w b (ix2 r q) = mlpAt x w b r q := rfl

/-- Entry (r, q) of the rectified update layer: the node's own features through the upper half of the weight, its
    degree-scaled aggregate through the lower half, plus the bias. -/
def updAt (x agg : FVec Ideal S100000x64 .f32) (inv : FVec Ideal S100000x1 .f32) (wx wa : FVec Ideal S64x64 .f32)
    (b : FVec Ideal S1x64 .f32) (r : Fin 100000) (q : Fin 64) : EReal :=
  max (((∑ k : Fin 64, x (ix2 r k) * wx (ix2 k q))
      + (∑ k : Fin 64, (agg (ix2 r k) * inv (ix2 r (0 : Fin 1))) * wa (ix2 k q))) + b (ix2 (0 : Fin 1) q)) 0

/-- Entry (r, q) of the row-normalised update: the rectified update over the row's norm, the norm bounded below by ε. -/
def outAt (x agg : FVec Ideal S100000x64 .f32) (inv : FVec Ideal S100000x1 .f32) (wx wa : FVec Ideal S64x64 .f32)
    (b : FVec Ideal S1x64 .f32) (r : Fin 100000) (q : Fin 64) : EReal :=
  Ideal.div (updAt x agg inv wx wa b r q)
    (max (Ideal.sqrt (∑ j : Fin 64, updAt x agg inv wx wa b r j * updAt x agg inv wx wa b r j))
      (Ideal.ofBits .f32 0x2B8CBCCC#32))

/-- The row-normalised update of the whole table. -/
def G1 (x agg : FVec Ideal S100000x64 .f32) (inv : FVec Ideal S100000x1 .f32) (wx wa : FVec Ideal S64x64 .f32)
    (b : FVec Ideal S1x64 .f32) : FVec Ideal S100000x64 .f32 :=
  fun i => outAt x agg inv wx wa b (i 0) (i 1)

theorem G1_apply (x agg : FVec Ideal S100000x64 .f32) (inv : FVec Ideal S100000x1 .f32) (wx wa : FVec Ideal S64x64 .f32)
    (b : FVec Ideal S1x64 .f32) (r : Fin 100000) (q : Fin 64) :
    G1 x agg inv wx wa b (ix2 r q) = outAt x agg inv wx wa b r q := rfl

end Cert.Spec

end
-- ==== Proof.KernelTerm.lean ====
/-
  The kernel program's result as one pure function of its seven arguments, over extended reals.

  With src and dst the two rows of the edge list: y is the rectified affine layer of the node table; the message of
  edge e is row src[e] of y (read with negative indices wrapped once and rows outside the table replaced by a fill
  value) times the edge's weight; agg sums the messages into row dst[e]; deg counts the edges into each node; the
  result is the row-normalised update of the node table with agg scaled by 1 / max(deg, 1).
-/
import proofs.«411524_j59846074303161_3_alg».proof.Proof.Spec

noncomputable section

namespace Cert.KernelTerm

open Idealize.ShloMosaic Cert.KernelIdeal Cert.KernelIdeal.Facts₀ Cert.KernelIdeal.Facts

/-- Row 0 of the edge list: each edge's source node. -/
def src (ei : IVec S2x1200000 32) : IVec S1200000 32 :=
  shapeCast S1200000 (extractStridedSlice S1x1200000 ![0, 0] ei slices_S2x1200000_S1x1200000_0_0) shapeCasts_S1x1200000_S1200000

/-- Row 1 of the edge list: each edge's destination node. -/
def dst (ei : IVec S2x1200000 32) : IVec S1200000 32 :=
  shapeCast S1200000 (extractStridedSlice S1x1200000 ![1, 0] ei slices_S2x1200000_S1x1200000_1_0) shapeCasts_S1x1200000_S1200000

/-- A negative index counts from the end: it is moved up by the table's height, once; then a unit axis is appended. -/
def wrapped (s : IVec S1200000 32) : IVec S1200000x1 32 :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 100000#32))) s)

/-- Whether each wrapped index names a row of the table: 0 ≤ i ≤ 99999. -/
def inRange (s : IVec S1200000 32) : IVec S1200000 1 :=
  Host.reduce IntOp.andi
    (andi (cmpi .sge (wrapped s) (broadcastInDim S1200000x1 ![] bcast_S_S1200000x1 (constantI S_ 32 0#32)))
      (cmpi .sle (wrapped s) (broadcastInDim S1200000x1 ![0, 1] bcast_S1x1_S1200000x1_0_1
        (broadcastInDim S1x1 ![1] bcast_S1_S1x1_1 (constantI S1 32 99999#32)))))
    (constantI S_ 1 1#1) reducesTo_S1200000x1_S1200000_d1 h_S_

/-- The rows of `y` the indices name; a row whose index is out of range is the fill value. -/
def takeRows (y : FVec Ideal S100000x64 .f32) (s : IVec S1200000 32) : FVec Ideal S1200000x64 .f32 :=
  select (broadcastInDim S1200000x64 ![0] bcast_S1200000_S1200000x64_0 (inRange s))
    (Host.gather gather_S100000x64_S1200000x1_S1200000x64_1_0_n_n_0_1_164 y (wrapped s))
    (broadcastInDim S1200000x64 ![] bcast_S_S1200000x64 (constant (F := Ideal) S_ .f32 0x7FC00000#32))

/-- The edges' messages: the source's row of `y` times the edge's weight. -/
def msgOf (y : FVec Ideal S100000x64 .f32) (s : IVec S1200000 32) (ew : FVec Ideal S1200000 .f32) :
    FVec Ideal S1200000x64 .f32 :=
  mulf (takeRows y s)
    (broadcastInDim S1200000x64 ![0, 1] bcast_S1200000x1_S1200000x64_0_1
      (broadcastInDim S1200000x1 ![0] bcast_S1200000_S1200000x1_0 ew))

/-- The messages summed into their destination rows. -/
def aggOf (y : FVec Ideal S100000x64 .f32) (s d : IVec S1200000 32) (ew : FVec Ideal S1200000 .f32) :
    FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d) (msgOf y s ew)

/-- Each node's number of incoming edges. -/
def degOf (d : IVec S1200000 32) : FVec Ideal S100000 .f32 :=
  Host.scatterAdd scatter_S100000_S1200000x1_S1200000_n_0_0_1
    (broadcastInDim S100000 ![] bcast_S_S100000 (constant (F := Ideal) S_ .f32 0x00000000#32))
    (broadcastInDim S1200000x1 ![0] bcast_S1200000_S1200000x1_0 d)
    (broadcastInDim S1200000 ![] bcast_S_S1200000 (constant (F := Ideal) S_ .f32 0x3F800000#32))

/-- 1 / max(deg, 1), as a column. -/
def invOf (dg : FVec Ideal S100000 .f32) : FVec Ideal S100000x1 .f32 :=
  broadcastInDim S100000x1 ![0] bcast_S100000_S100000x1_0
    (Host.divf (broadcastInDim S100000 ![] bcast_S_S100000 (constant (F := Ideal) S_ .f32 0x3F800000#32))
      (maximumf dg (broadcastInDim S100000 ![] bcast_S_S100000 (constant (F := Ideal) S_ .f32 0x3F800000#32))))

/-- The upper 64 rows of the update weight. -/
def wTop (wu : FVec Ideal S128x64 .f32) : FVec Ideal S64x64 .f32 :=
  extractStridedSlice S64x64 ![0, 0] wu slices_S128x64_S64x64_0_0

/-- The lower 64 rows of the update weight. -/
def wBot (wu : FVec Ideal S128x64 .f32) : FVec Ideal S64x64 .f32 :=
  extractStridedSlice S64x64 ![64, 0] wu slices_S128x64_S64x64_64_0

/-- A bias vector as a one-row matrix. -/
def biasRow (b : FVec Ideal S64 .f32) : FVec Ideal S1x64 .f32 :=
  broadcastInDim S1x64 ![1] bcast_S64_S1x64_1 b

/-- The kernel program's result as a function of its arguments. -/
def kval (x : FVec Ideal S100000x64 .f32) (ei : IVec S2x1200000 32) (ew : FVec Ideal S1200000 .f32)
    (w : FVec Ideal S64x64 .f32) (b : FVec Ideal S64 .f32) (wu : FVec Ideal S128x64 .f32) (bu : FVec Ideal S64 .f32) :
    FVec Ideal S100000x64 .f32 :=
  Cert.Spec.G1 x (aggOf (Cert.Spec.G0 x w (biasRow b)) (src ei) (dst ei) ew) (invOf (degOf (dst ei)))
    (wTop wu) (wBot wu) (biasRow bu)

end Cert.KernelTerm

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.NodeMlpValue.lean ====
/- What the first kernel's output array holds after its grid has run: the rectified affine layer of the whole node table. -/
import proofs.«411524_j59846074303161_3_alg».proof.Proof.Gen.KernelIdeal.Frame
import proofs.«411524_j59846074303161_3_alg».proof.Proof.Spec
import proofs.«411524_j59846074303161_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.NodeMlpValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## One entry of what the body computes

The body truncates the row block and the weight to the narrow format (the identity on extended reals), multiplies them
into a zero accumulator, adds the bias row broadcast down the rows, and takes the maximum with zero. -/

/-- The kernel's dimension numbers are the plain ones: rows × contraction by contraction × columns, no batch axis. -/
theorem dims_plain : dot_S10000x64_S64x64_S10000x64_1_0_0_1_n_n = DotDims.plain 10000 64 64 := rfl

/-- Entry (p, q) of the body's value, from a row block `v0`, the weight `v2` and the bias row `v5`:
    max(Σ_k v0[p,k]·v2[k,q] + v5[0,q], 0). It depends on row p of the block only. -/
theorem payload_apply (v0 : Vec Ideal S10000x64 .f32) (v2 : Vec Ideal S64x64 .f32) (v5 : Vec Ideal S1x64 .f32)
    (p : Fin 10000) (q : Fin 64) :
    k0_pay1 (F := Ideal) v0 v2 v5 (ix2 p q)
      = max ((∑ k : Fin 64, v0 (ix2 p k) * v2 (ix2 k q)) + v5 (ix2 (0 : Fin 1) q)) 0 := by
  unfold k0_pay1
  rw [maximumf_apply, addf_apply, broadcast_apply, shapeCast_self, broadcastTo_1b_ab_apply, dims_plain]
  simp only [matmul]
  rw [Cert.LibPlainDot.matmul_plain_apply, Ideal.ofBits_def, Ideal.ofBits_zero_f32]
  simp only [truncf_apply]

/-! ## The blocks

The grid has ten points. At point t the table's window and the output's window are both block (t, 0) of
10000 × 64 entries: rows 10000·t … 10000·t + 9999, all 64 columns. The weight's and the bias row's windows are the
whole arrays at every point. A block's entry at local coordinate y sits, on each axis, at
block index × block extent + y of the array. -/

/-- A grid point is below ten. -/
theorem point_lt (t : Fin cfg0.N) : t.val < 10 := lt_of_lt_of_eq t.isLt N_0

/-- The four windows' block indices at every point of the grid: the table and the output move with the point along the
    rows; the weight and the bias stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the table's block at point t is entry (10000·t + p, k) of the table. -/
theorem table_block_apply (c : Dev nD) (t : Fin cfg0.N) (p : Fin 10000) (k : Fin 64) :
    iblk0 V c 0 t (ix2 p k)
      = V c main_arg0 (ix2 (⟨10000 * t.val + p.val, by have := point_lt t; omega⟩ : Fin 100000) k) := by
  show V c main_arg0 (((cfg0.win 0).blk t).view.emb (ix2 p k)) = V c main_arg0 _
  obtain ⟨e0, e1, -⟩ := block_index t
  refine congrArg (V c main_arg0) (funext fun a => Fin.ext ?_)
  match a with
  | ⟨0, _⟩ => show win0_0.index t (0 : Fin 2) * 10000 + 1 * p.val = 10000 * t.val + p.val; omega
  | ⟨1, _⟩ => show win0_0.index t (1 : Fin 2) * 64 + 1 * k.val = k.val; omega

/-- The weight's block at any point is the weight. -/
theorem weight_block_apply (c : Dev nD) (t : Fin cfg0.N) (k : Fin 64) (q : Fin 64) :
    iblk0 V c 1 t (ix2 k q) = V c main_arg3 (ix2 k q) := by
  show V c main_arg3 (((cfg0.win 1).blk t).view.emb (ix2 k q)) = V c main_arg3 _
  obtain ⟨-, -, e0, e1, -⟩ := block_index t
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias row's block at any point is the bias row. -/
theorem bias_block_apply (c : Dev nD) (t : Fin cfg0.N) (q : Fin 64) :
    iblk0 V c 2 t (ix2 (0 : Fin 1) q) = V c main_v4 (ix2 (0 : Fin 1) q) := by
  show V c main_v4 (((cfg0.win 2).blk t).view.emb (ix2 (0 : Fin 1) q)) = V c main_v4 _
  obtain ⟨-, -, -, -, e0, e1, -⟩ := block_index t
  refine congrArg (V c main_v4) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 64 + 1 * q.val = q.val; omega

/-- Local entry (p, q) of the output's block at point t is entry (10000·t + p, q) of the output array. -/
theorem out_block_emb (t : Fin cfg0.N) (p : Fin 10000) (q : Fin 64) :
    ((cfg0.win 3).blk t).view.emb (ix2 p q)
      = ix2 (⟨10000 * t.val + p.val, by have := point_lt t; omega⟩ : Fin 100000) q := by
  obtain ⟨-, -, -, -, -, -, e0, e1⟩ := block_index t
  refine funext fun a => Fin.ext ?_
  match a with
  | ⟨0, _⟩ => show win0_3.index t (0 : Fin 2) * 10000 + 1 * p.val = 10000 * t.val + p.val; omega
  | ⟨1, _⟩ => show win0_3.index t (1 : Fin 2) * 64 + 1 * q.val = q.val; omega

/-! ## What one point writes back -/

/-- The body's one store starts at the block's origin. -/
theorem origin_zero : (![0, 0] : Fin 2 → Nat) = fun _ => 0 := funext fun a => by fin_cases a <;> rfl

/-- What point t writes back is block t of the rectified affine layer of the whole table: the body stores its value over
    the whole output block, and its entry (p, q) reads row p of the table's block, which is row 10000·t + p of the table,
    the same row the layer's entry (10000·t + p, q) reads. -/
theorem written_eq (c : Dev nD) (t : Fin cfg0.N) :
    (dat0 (F := Ideal) V c).flushed 3 t
      = ((cfg0.win 3).blk t).view.read (Elt Ideal) (Cert.Spec.G0 (V c main_arg0) (V c main_arg3) (V c main_v4)) := by
  show (cfg0.win 3).cut (grid0.coords t) ((dat0 V c).after 3 t) = _
  rw [after0_3]
  unfold out0_3
  rw [View.canon_unit_zero origin_zero]
  simp only [View.ld_unit_zero (S := S10000x64) origin_zero, View.ld_unit_zero (S := S64x64) origin_zero,
    View.ld_unit_zero (S := S1x64) origin_zero]
  funext j
  obtain ⟨p, q, rfl⟩ : ∃ (p : Fin 10000) (q : Fin 64), j = ix2 p q := ⟨j 0, j 1, eq_ix2 j⟩
  refine (payload_apply _ _ _ p q).trans ?_
  show _ = Cert.Spec.G0 (V c main_arg0) (V c main_arg3) (V c main_v4) (((cfg0.win 3).blk t).view.emb (ix2 p q))
  rw [out_block_emb, Cert.Spec.G0_apply, bias_block_apply]
  unfold Cert.Spec.mlpAt
  refine congrArg (fun s => max (s + V c main_v4 (ix2 (0 : Fin 1) q)) 0) (Finset.sum_congr rfl fun k _ => ?_)
  rw [table_block_apply, weight_block_apply]

/-! ## The blocks tile the array -/

/-- An entry of the output array lies in point t's block iff, on each axis, its coordinate lies in the block's range. -/
theorem mem_out_block (t : Fin cfg0.N) (i : S100000x64.Idx) :
    i ∈ ((cfg0.win 3).blk t).view.set
      ↔ ∀ a : Fin 2, win0_3.index t a * S10000x64.size a ≤ (i a).val
          ∧ (i a).val < win0_3.index t a * S10000x64.size a + S10000x64.size a := by
  show i ∈ ((View.whole main_v5).slice (win0_3.rect t)).set ↔ _
  rw [View.set_slice_whole, Rect.mem_set_unit]
  exact Iff.rfl

/-- Every entry (r, q) of the output array lies in the block of a point that writes back: point r / 10000. -/
theorem out_blocks_cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have ht : (i 0).val / 10000 < cfg0.N := (show (i 0).val / 10000 < 10 by omega).trans_eq N_0.symm
  obtain ⟨-, -, -, -, -, -, e0, e1⟩ := block_index ⟨(i 0).val / 10000, ht⟩
  have e0' : win0_3.index ⟨(i 0).val / 10000, ht⟩ (0 : Fin 2) = (i 0).val / 10000 := e0
  refine ⟨⟨(i 0).val / 10000, ht⟩, flush0_3 _, ?_⟩
  rw [mem_out_block]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- After the first kernel's ten grid points the output array is the rectified affine layer of the node table as the
    region found it: each point writes the rows of its own block, and the blocks tile the table. -/
theorem arr0 (c : Dev nD) :
    (dat0 (F := Ideal) V c).arrAt 3 cfg0.N = Cert.Spec.G0 (V c main_arg0) (V c main_arg3) (V c main_v4) := by
  exact (dat0 (F := Ideal) V c).arrAt_eq_of_cover 3 _ (fun t _ => written_eq V c t) out_blocks_cover

end Cert.NodeMlpValue

end
-- ==== Proof.CombineValue.lean ====
/- What the second kernel's output array holds after its grid has run: the row-normalised update of the whole table.

   The table has 100000 rows of 64; the grid has twenty points, and point t works on the block of rows 5000 t … 5000 t + 4999.
   Entry (p, q) of what a point computes reads row p of its blocks of x, of agg and of the inverse degrees, and all of the two
   weight halves and the bias: first the rectified update u[p, q] = max(Σ_k x[p,k]·wx[k,q] + Σ_k (agg[p,k]·inv[p])·wa[k,q] + b[q], 0),
   then u[p, q] over max(√(Σ_j u[p,j]²), ε). Since row p of point t's blocks is row 5000 t + p of the arrays, what the point writes
   back is its block of the whole-table function, and the twenty blocks tile the table. -/
import proofs.«411524_j59846074303161_3_alg».proof.Proof.Gen.KernelIdeal.Frame
import proofs.«411524_j59846074303161_3_alg».proof.Proof.Spec
import proofs.«411524_j59846074303161_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.CombineValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The body's arithmetic at one entry of a block

The body reads six blocks: `x` and `agg` (5000 rows of 64), `inv` (5000 rows of 1), the two 64 × 64 halves `wx`, `wa` of
the weight, and the bias as one row of 64. Entry (p, q) of what it stores depends on row p of `x` and of `agg`, on
`inv` at row p, and on the whole of the weights and the bias. -/

/-- The rectified update at row `p`, column `q` of a block: the row of `x` through `wx`, the row of `agg` scaled by the row's
    inverse degree through `wa`, plus the bias, rectified. -/
def updBlk (v0 v2 : Vec Ideal S5000x64 .f32) (v4 : Vec Ideal S5000x1 .f32) (v9 v12 : Vec Ideal S64x64 .f32)
    (v18 : Vec Ideal S1x64 .f32) (p : Fin 5000) (q : Fin 64) : EReal :=
  max (((∑ k : Fin 64, v0 (ix2 p k) * v9 (ix2 k q))
      + (∑ k : Fin 64, (v2 (ix2 p k) * v4 (ix2 p (0 : Fin 1))) * v12 (ix2 k q))) + v18 (ix2 (0 : Fin 1) q)) 0

/-- The body's rectified update as a vector of the loaded blocks: the two matrix products into zero accumulators, added,
    the bias row added to every row, the maximum with zero. -/
def rectBlk (v0 v2 : Vec Ideal S5000x64 .f32) (v4 : Vec Ideal S5000x1 .f32) (v9 v12 : Vec Ideal S64x64 .f32)
    (v18 : Vec Ideal S1x64 .f32) : FVec Ideal S5000x64 .f32 :=
  maximumf
    (addf
      (addf
        (matmul dot_S5000x64_S64x64_S5000x64_1_0_0_1_n_n none (truncf .bf16 v0 bitsLt_bf16_f32)
          (truncf .bf16 (shapeCast S64x64 v9 shapeCasts_S64x64_S64x64) bitsLt_bf16_f32) (constant S5000x64 .f32 0x00000000#32))
        (matmul dot_S5000x64_S64x64_S5000x64_1_0_0_1_n_n none
          (truncf .bf16 (mulf (shapeCast S5000x64 v2 shapeCasts_S5000x64_S5000x64)
            (broadcastTo S5000x64 (shapeCast S5000x1 v4 shapeCasts_S5000x1_S5000x1) broadcasts_S5000x1_S5000x64)) bitsLt_bf16_f32)
          (truncf .bf16 (shapeCast S64x64 v12 shapeCasts_S64x64_S64x64) bitsLt_bf16_f32) (constant S5000x64 .f32 0x00000000#32)))
      (broadcastTo S5000x64 (shapeCast S1x64 v18 shapeCasts_S1x64_S1x64) broadcasts_S1x64_S5000x64))
    (broadcast S5000x64 (Scalar.ofBits .f32 0x00000000#32))

/-- The payload is the rectified update divided, row by row, by the row's norm bounded below. -/
theorem pay_eq (v0 v2 : Vec Ideal S5000x64 .f32) (v4 : Vec Ideal S5000x1 .f32) (v9 v12 : Vec Ideal S64x64 .f32)
    (v18 : Vec Ideal S1x64 .f32) :
    k1_pay1 (F := Ideal) v0 v2 v4 v9 v12 v18
      = divf (rectBlk v0 v2 v4 v9 v12 v18)
          (broadcastTo S5000x64
            (maximumf (sqrt (shapeCast S5000x1 (multiReduction .add [1] S5000 (mulf (rectBlk v0 v2 v4 v9 v12 v18) (rectBlk v0 v2 v4 v9 v12 v18)) 0x00000000#32 reduces_S5000x64_S5000 (.inl rfl) rfl) shapeCasts_S5000_S5000x1))
              (broadcast S5000x1 (Scalar.ofBits .f32 0x2B8CBCCC#32)))
            broadcasts_S5000x1_S5000x64) := rfl

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis added by a shape cast: an `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The matrix unit's product of a 5000 × 64 block with a 64 × 64 matrix into the zero accumulator, at one entry. -/
theorem mm_apply (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) :=
  Cert.LibPlainDot.matmul_plain_apply 5000 64 64 none A B p q

/-- The sum along a row of a 5000 × 64 block. -/
theorem rowSum_apply (src : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The rectified update vector at an entry. -/
theorem rectBlk_apply (v0 v2 : Vec Ideal S5000x64 .f32) (v4 : Vec Ideal S5000x1 .f32) (v9 v12 : Vec Ideal S64x64 .f32)
    (v18 : Vec Ideal S1x64 .f32) (p : Fin 5000) (q : Fin 64) :
    rectBlk v0 v2 v4 v9 v12 v18 (ix2 p q) = updBlk v0 v2 v4 v9 v12 v18 p q := by
  unfold rectBlk updBlk
  rw [maximumf_apply, addf_apply, addf_apply, mm_apply, mm_apply, broadcast_apply, broadcastTo_1b_ab_apply]
  simp only [shapeCast_self, truncf_apply, mulf_apply, broadcastTo_a1_ab_apply]
  show max _ (Ideal.ofBits .f32 0x00000000#32) = _
  rw [Ideal.ofBits_zero_f32]

/-- THE PAYLOAD AT AN ENTRY: the rectified update at (p, q) over the Euclidean norm of row p of the rectified update, the norm
    bounded below by the small constant. -/
theorem pay_apply (v0 v2 : Vec Ideal S5000x64 .f32) (v4 : Vec Ideal S5000x1 .f32) (v9 v12 : Vec Ideal S64x64 .f32)
    (v18 : Vec Ideal S1x64 .f32) (p : Fin 5000) (q : Fin 64) :
    k1_pay1 (F := Ideal) v0 v2 v4 v9 v12 v18 (ix2 p q)
      = Ideal.div (updBlk v0 v2 v4 v9 v12 v18 p q)
          (max (Ideal.sqrt (∑ j : Fin 64, updBlk v0 v2 v4 v9 v12 v18 p j * updBlk v0 v2 v4 v9 v12 v18 p j))
            (Ideal.ofBits .f32 0x2B8CBCCC#32)) := by
  rw [pay_eq, divf_apply, rectBlk_apply, broadcastTo_a1_ab_apply, maximumf_apply, broadcast_apply]
  refine congrArg (fun z => Ideal.div (updBlk v0 v2 v4 v9 v12 v18 p q) (max z (Ideal.ofBits .f32 0x2B8CBCCC#32))) ?_
  show Ideal.sqrt (shapeCast S5000x1 _ _ (ix2 p (0 : Fin 1))) = _
  rw [shapeCast_a_a1_apply]
  refine congrArg Ideal.sqrt ((rowSum_apply _ _ _ _ p).trans ?_)
  refine Finset.sum_congr rfl fun j _ => ?_
  rw [mulf_apply, rectBlk_apply]

/-! ## The blocks

The grid has twenty points. At point `t` the windows of `x`, `agg`, `inv` and of the output hold block `(t, 0)` of their
arrays, that is rows `5000 t … 5000 t + 4999`; the windows of the weights and the bias hold their whole arrays at every point. -/

theorem zeroOffsets : (![0, 0] : Fin 2 → Nat) = fun _ => 0 := funext fun a => by fin_cases a <;> rfl

/-- The block index of every window at every point, decided over the grid: the row windows and the output move with the
    point along the rows, the weights' and the bias's stay at the origin. -/
theorem blockIdx : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- A point of the grid is below twenty. -/
theorem pt_lt (t : Fin cfg1.N) : t.val < 20 := lt_of_lt_of_eq t.isLt N_1

/-- Row `p` of point `t`'s block is row `5000 t + p` of the table. -/
def rowOf (t : Fin cfg1.N) (p : Fin 5000) : Fin 100000 :=
  ⟨5000 * t.val + p.val, by have := pt_lt t; have := p.isLt; omega⟩

/-- The block of `x` at point `t`, at (p, k), is `x` at row `5000 t + p`, column k. -/
theorem blk0_apply (c : Dev nD) (t : Fin cfg1.N) (p : Fin 5000) (k : Fin 64) :
    (iblk1 V c 0 t : Vec Ideal S5000x64 .f32) (ix2 p k) = (V c main_arg0 : FVec Ideal S100000x64 .f32) (ix2 (rowOf t p) k) := by
  obtain ⟨-, -, e0, e1, -⟩ := blockIdx t
  unfold iblk1
  rw [View.read_apply]
  show V c main_arg0 _ = V c main_arg0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The block of `agg` at point `t`, at (p, k), is `agg` at row `5000 t + p`, column k. -/
theorem blk1_apply (c : Dev nD) (t : Fin cfg1.N) (p : Fin 5000) (k : Fin 64) :
    (iblk1 V c 1 t : Vec Ideal S5000x64 .f32) (ix2 p k) = (V c main_v12 : FVec Ideal S100000x64 .f32) (ix2 (rowOf t p) k) := by
  obtain ⟨-, -, -, -, e0, e1, -⟩ := blockIdx t
  unfold iblk1
  rw [View.read_apply]
  show V c main_v12 _ = V c main_v12 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- The block of the inverse degrees at point `t`, at row p, is the inverse degree of row `5000 t + p`. -/
theorem blk2_apply (c : Dev nD) (t : Fin cfg1.N) (p : Fin 5000) (u : Fin 1) :
    (iblk1 V c 2 t : Vec Ideal S5000x1 .f32) (ix2 p u) = (V c main_v21 : FVec Ideal S100000x1 .f32) (ix2 (rowOf t p) u) := by
  obtain ⟨-, -, -, -, -, -, e0, e1, -⟩ := blockIdx t
  unfold iblk1
  rw [View.read_apply]
  show V c main_v21 _ = V c main_v21 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * u.val = u.val; rw [e1]; omega

/-- The window of the upper half of the weight holds the whole of it at every point. -/
theorem blk3_apply (c : Dev nD) (t : Fin cfg1.N) (y : S64x64.Idx) :
    (iblk1 V c 3 t : Vec Ideal S64x64 .f32) y = (V c main_v22 : FVec Ideal S64x64 .f32) y := by
  obtain ⟨-, -, -, -, -, -, -, -, e0, e1, -⟩ := blockIdx t
  unfold iblk1
  rw [View.read_apply]
  show V c main_v22 _ = V c main_v22 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The window of the lower half of the weight holds the whole of it at every point. -/
theorem blk4_apply (c : Dev nD) (t : Fin cfg1.N) (y : S64x64.Idx) :
    (iblk1 V c 4 t : Vec Ideal S64x64 .f32) y = (V c main_v23 : FVec Ideal S64x64 .f32) y := by
  obtain ⟨-, -, -, -, -, -, -, -, -, -, e0, e1, -⟩ := blockIdx t
  unfold iblk1
  rw [View.read_apply]
  show V c main_v23 _ = V c main_v23 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The window of the bias holds its one row at every point. -/
theorem blk5_apply (c : Dev nD) (t : Fin cfg1.N) (y : S1x64.Idx) :
    (iblk1 V c 5 t : Vec Ideal S1x64 .f32) y = (V c main_v24 : FVec Ideal S1x64 .f32) y := by
  obtain ⟨-, -, -, -, -, -, -, -, -, -, -, -, e0, e1⟩ := blockIdx t
  unfold iblk1
  rw [View.read_apply]
  show V c main_v24 _ = V c main_v24 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Entry (p, q) of the output's block at point `t` is entry `(5000 t + p, q)` of the output array. -/
theorem outBlk_emb (t : Fin cfg1.N) (p : Fin 5000) (q : Fin 64) :
    ((cfg1.win 6).blk t).view.emb (ix2 p q) = (ix2 (rowOf t p) q : S100000x64.Idx) := by
  obtain ⟨e0, e1, -⟩ := blockIdx t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 64 + 1 * q.val = q.val; rw [e1]; omega

/-- The rectified update of the blocks at point `t`, at (p, q), is the rectified update of the whole arrays at row
    `5000 t + p`: it reads only that row of `x`, of `agg` and of the inverse degrees. -/
theorem updBlk_blocks (c : Dev nD) (t : Fin cfg1.N) (p : Fin 5000) (q : Fin 64) :
    updBlk (iblk1 V c 0 t) (iblk1 V c 1 t) (iblk1 V c 2 t) (iblk1 V c 3 t) (iblk1 V c 4 t) (iblk1 V c 5 t) p q
      = Cert.Spec.updAt (V c main_arg0) (V c main_v12) (V c main_v21) (V c main_v22) (V c main_v23) (V c main_v24) (rowOf t p) q := by
  unfold updBlk Cert.Spec.updAt
  simp only [blk0_apply, blk1_apply, blk2_apply, blk3_apply, blk4_apply, blk5_apply]

/-! ## From the blocks to the array -/

/-- WHAT POINT `t` WRITES BACK is block `t` of the row-normalised update of the operand arrays as the region finds them. -/
theorem flushed_eq (c : Dev nD) (t : Fin cfg1.N) :
    (dat1 (F := Ideal) V c).flushed 6 t = ((cfg1.win 6).blk t).view.read (Elt Ideal)
      (Cert.Spec.G1 (V c main_arg0) (V c main_v12) (V c main_v21) (V c main_v22) (V c main_v23) (V c main_v24)) := by
  show (cfg1.win 6).cut (grid1.coords t) ((dat1 V c).after 6 t) = _
  rw [after1_6]
  unfold out1_6
  rw [View.canon_unit_zero zeroOffsets]
  simp only [View.ld_unit_zero (S := S5000x64) zeroOffsets, View.ld_unit_zero (S := S5000x1) zeroOffsets,
    View.ld_unit_zero (S := S64x64) zeroOffsets, View.ld_unit_zero (S := S1x64) zeroOffsets]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Cert.Spec.G1 (V c main_arg0) (V c main_v12) (V c main_v21) (V c main_v22) (V c main_v23) (V c main_v24)
        (((cfg1.win 6).blk t).view.emb (ix2 p q))
  refine (pay_apply _ _ _ _ _ _ p q).trans ?_
  rw [outBlk_emb t p q, Cert.Spec.G1_apply]
  unfold Cert.Spec.outAt
  simp only [updBlk_blocks]

/-- An index of the table is in point `t`'s block iff each coordinate is in the block's range on its axis. -/
theorem mem_outBlk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v25).slice (win1_6.rect t)).set ↔ _
  rw [View.set_slice_whole, Rect.mem_set_unit]
  exact Iff.rfl

/-- The blocks tile the table: row `r` is in the block of point `r / 5000`, which writes back. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have ht : (i 0).val / 5000 < cfg1.N := lt_of_lt_of_eq (show (i 0).val / 5000 < 20 by omega) N_1.symm
  obtain ⟨e0, e1, -⟩ := blockIdx ⟨(i 0).val / 5000, ht⟩
  refine ⟨⟨(i 0).val / 5000, ht⟩, flush1_6 _, ?_⟩
  rw [mem_outBlk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [e1]
    omega

/-- After the second kernel's twenty grid points the output array is the row-normalised update of the table as the
    region found its operands: each point writes the rows of its own block, and the blocks tile the table. -/
theorem arr1 (c : Dev nD) :
    (dat1 (F := Ideal) V c).arrAt 6 cfg1.N
      = Cert.Spec.G1 (V c main_arg0) (V c main_v12) (V c main_v21) (V c main_v22) (V c main_v23) (V c main_v24) := by
  exact (dat1 V c).arrAt_eq_of_cover 6 _ (fun t _ => flushed_eq V c t) covered

end Cert.CombineValue

end
-- ==== Proof.KernelValue.lean ====
/-
  The idealized kernel program's result buffer, at the end of its run, as the pure function `kval` of the argument
  arrays at launch.

  The program is five stretches: host operations (the two rows of the edge list, the first bias as a row), the first
  kernel, the function that takes rows of its output, host operations (messages, their sums by destination, the degrees,
  the inverse degrees, the two halves of the update weight, the second bias as a row), the second kernel. The buffer
  contents at each boundary are the previous boundary's with the stretch's results written; reading the operands of each
  kernel back through these boundaries lands on the arguments.
-/
import proofs.«411524_j59846074303161_3_alg».proof.Proof.Gen.KernelIdeal.Frame
import proofs.«411524_j59846074303161_3_alg».proof.Proof.KernelTerm
import proofs.«411524_j59846074303161_3_alg».proof.Proof.NodeMlpValue
import proofs.«411524_j59846074303161_3_alg».proof.Proof.CombineValue
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Cert.KernelIdeal Cert.KernelIdeal.Gen Cert.KernelTerm

/-! ## The host stretches, from any contents -/

section Stretches

variable (U : Valuation τ sig (Elt Ideal))

theorem stretch0_arg0 : after (hostOps0 (F := Ideal)) U (Proc.devRef .tc main_arg0) = U (Proc.devRef .tc main_arg0) := by
  simp only [hostOps0]; after_results
theorem stretch0_arg3 : after (hostOps0 (F := Ideal)) U (Proc.devRef .tc main_arg3) = U (Proc.devRef .tc main_arg3) := by
  simp only [hostOps0]; after_results
theorem stretch0_v1 : after (hostOps0 (F := Ideal)) U (Proc.devRef .tc main_v1) = src (U (Proc.devRef .tc main_arg1)) := by
  simp only [hostOps0]; after_results; rfl
theorem stretch0_v3 : after (hostOps0 (F := Ideal)) U (Proc.devRef .tc main_v3) = dst (U (Proc.devRef .tc main_arg1)) := by
  simp only [hostOps0]; after_results; rfl
theorem stretch0_v4 : after (hostOps0 (F := Ideal)) U (Proc.devRef .tc main_v4) = biasRow (U (Proc.devRef .tc main_arg4)) := by
  simp only [hostOps0]; after_results; rfl
theorem stretch0_arg2 : after (hostOps0 (F := Ideal)) U (Proc.devRef .tc main_arg2) = U (Proc.devRef .tc main_arg2) := by
  simp only [hostOps0]; after_results
theorem stretch0_arg5 : after (hostOps0 (F := Ideal)) U (Proc.devRef .tc main_arg5) = U (Proc.devRef .tc main_arg5) := by
  simp only [hostOps0]; after_results
theorem stretch0_arg6 : after (hostOps0 (F := Ideal)) U (Proc.devRef .tc main_arg6) = U (Proc.devRef .tc main_arg6) := by
  simp only [hostOps0]; after_results

/-- A value written at a typed reference and read back at it is the value. -/
theorem ofBuf_toBuf {sig : RefSig} {Val : EltTy → Type} {T : BufTy} (x : TRef sig T) (v : T.Contents Val) :
    x.ofBuf (x.toBuf v) = v := by
  obtain ⟨r, rfl, _, _⟩ := x; rfl

theorem toBuf_v6 (p1 p2 p3) (v : (⟨S1200000x64, .f32⟩ : BufTy).Contents (Elt Ideal)) :
    (TRef.of (sig := sig) (T := ⟨S1200000x64, .f32⟩) main_v6 p1 p2 p3).toBuf v = v := rfl
theorem ofBuf_v5 (p1 p2 p3) (v : (⟨S100000x64, .f32⟩ : BufTy).Contents (Elt Ideal)) :
    (TRef.of (sig := sig) (T := ⟨S100000x64, .f32⟩) main_v5 p1 p2 p3).ofBuf v = v := rfl
theorem ofBuf_v1 (p1 p2 p3) (v : (⟨S1200000, .i32⟩ : BufTy).Contents (Elt Ideal)) :
    (TRef.of (sig := sig) (T := ⟨S1200000, .i32⟩) main_v1 p1 p2 p3).ofBuf v = v := rfl

/-! The function that takes rows: its result buffer, and the buffers it leaves alone. -/

set_option maxHeartbeats 2000000 in
theorem take_v6 : after (hostOps1 (F := Ideal)) U (Proc.devRef .tc main_v6)
    = takeRows (U (Proc.devRef .tc main_v5)) (U (Proc.devRef .tc main_v1)) := by
  generalize hR : takeRows (U (Proc.devRef .tc main_v5)) (U (Proc.devRef .tc main_v1)) = R
  simp only [hostOps1]; after_results
  simp only [ofBuf_toBuf]
  rw [toBuf_v6, ofBuf_v5, ofBuf_v1]
  rw [← hR]
  delta takeRows inRange wrapped
  rfl
theorem take_keep_arg0 : after (hostOps1 (F := Ideal)) U (Proc.devRef .tc main_arg0) = U (Proc.devRef .tc main_arg0) := by
  simp only [hostOps1]; after_results
theorem take_keep_v3 : after (hostOps1 (F := Ideal)) U (Proc.devRef .tc main_v3) = U (Proc.devRef .tc main_v3) := by
  simp only [hostOps1]; after_results
theorem take_keep_arg2 : after (hostOps1 (F := Ideal)) U (Proc.devRef .tc main_arg2) = U (Proc.devRef .tc main_arg2) := by
  simp only [hostOps1]; after_results
theorem take_keep_arg5 : after (hostOps1 (F := Ideal)) U (Proc.devRef .tc main_arg5) = U (Proc.devRef .tc main_arg5) := by
  simp only [hostOps1]; after_results
theorem take_keep_arg6 : after (hostOps1 (F := Ideal)) U (Proc.devRef .tc main_arg6) = U (Proc.devRef .tc main_arg6) := by
  simp only [hostOps1]; after_results

/-! The host operations between the row-taking function and the second kernel. -/

theorem stretch1_arg0 : after (hostOps1_1 (F := Ideal)) U (Proc.devRef .tc main_arg0) = U (Proc.devRef .tc main_arg0) := by
  simp only [hostOps1_1]; after_results
theorem stretch1_v12 : after (hostOps1_1 (F := Ideal)) U (Proc.devRef .tc main_v12)
    = Host.scatterAdd scatter_S100000x64_S1200000x1_S1200000x64_1_0_0_1
        (broadcastInDim S100000x64 ![] bcast_S_S100000x64 (constant (F := Ideal) S_ .f32 0x00000000#32))
        (broadcastInDim S1200000x1 ![0] bcast_S1200000_S1200000x1_0 (U (Proc.devRef .tc main_v3)))
        (mulf (U (Proc.devRef .tc main_v6))
          (broadcastInDim S1200000x64 ![0, 1] bcast_S1200000x1_S1200000x64_0_1
            (broadcastInDim S1200000x1 ![0] bcast_S1200000_S1200000x1_0 (U (Proc.devRef .tc main_arg2))))) := by
  simp only [hostOps1_1]; after_results
theorem stretch1_v21 : after (hostOps1_1 (F := Ideal)) U (Proc.devRef .tc main_v21) = invOf (degOf (U (Proc.devRef .tc main_v3))) := by
  simp only [hostOps1_1]; after_results; rfl
theorem stretch1_v22 : after (hostOps1_1 (F := Ideal)) U (Proc.devRef .tc main_v22) = wTop (U (Proc.devRef .tc main_arg5)) := by
  simp only [hostOps1_1]; after_results; rfl
theorem stretch1_v23 : after (hostOps1_1 (F := Ideal)) U (Proc.devRef .tc main_v23) = wBot (U (Proc.devRef .tc main_arg5)) := by
  simp only [hostOps1_1]; after_results; rfl
theorem stretch1_v24 : after (hostOps1_1 (F := Ideal)) U (Proc.devRef .tc main_v24) = biasRow (U (Proc.devRef .tc main_arg6)) := by
  simp only [hostOps1_1]; after_results; rfl

end Stretches

/-! ## The boundaries of the run, read back to the launch memory -/

variable (m : (ℓ : Loc nD τ sig) → Buf (Elt Ideal) ℓ) (ρ : Dev nD → PrngReg)

/-- The first kernel's output array when the first region is left. -/
theorem exit0_y (c : Dev nD) :
    W2 m ρ c (Proc.devRef .tc main_v5)
      = Cert.Spec.G0 (m ((c : Thread nD τ).loc main_arg0)) (m ((c : Thread nD τ).loc main_arg3))
          (biasRow (m ((c : Thread nD τ).loc main_arg4))) := by
  refine (W2_arr m ρ c 3).trans ((Cert.NodeMlpValue.arr0 (V1 m ρ) c).trans ?_)
  have e0 : V1 m ρ c main_arg0 = m ((c : Thread nD τ).loc main_arg0) := stretch0_arg0 (W0 m ρ c)
  have e3 : V1 m ρ c main_arg3 = m ((c : Thread nD τ).loc main_arg3) := stretch0_arg3 (W0 m ρ c)
  have e4 : V1 m ρ c main_v4 = biasRow (m ((c : Thread nD τ).loc main_arg4)) := stretch0_v4 (W0 m ρ c)
  rw [e0, e3, e4]

theorem exit0_v1 (c : Dev nD) : W2 m ρ c (Proc.devRef .tc main_v1) = src (m ((c : Thread nD τ).loc main_arg1)) :=
  (W2_of_ne m ρ c main_v1 (by decide)).trans (stretch0_v1 (W0 m ρ c))
theorem exit0_v3 (c : Dev nD) : W2 m ρ c (Proc.devRef .tc main_v3) = dst (m ((c : Thread nD τ).loc main_arg1)) :=
  (W2_of_ne m ρ c main_v3 (by decide)).trans (stretch0_v3 (W0 m ρ c))
theorem exit0_arg2 (c : Dev nD) : W2 m ρ c (Proc.devRef .tc main_arg2) = m ((c : Thread nD τ).loc main_arg2) :=
  (W2_of_ne m ρ c main_arg2 (by decide)).trans (stretch0_arg2 (W0 m ρ c))
theorem exit0_arg5 (c : Dev nD) : W2 m ρ c (Proc.devRef .tc main_arg5) = m ((c : Thread nD τ).loc main_arg5) :=
  (W2_of_ne m ρ c main_arg5 (by decide)).trans (stretch0_arg5 (W0 m ρ c))
theorem exit0_arg6 (c : Dev nD) : W2 m ρ c (Proc.devRef .tc main_arg6) = m ((c : Thread nD τ).loc main_arg6) :=
  (W2_of_ne m ρ c main_arg6 (by decide)).trans (stretch0_arg6 (W0 m ρ c))
theorem exit0_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (stretch0_arg0 (W0 m ρ c))

/-- THE RESULT: the result buffer at the last boundary is `kval` of the arguments at launch. -/
theorem kernel_value (c : Dev nD) :
    W5 m ρ c (Proc.devRef .tc main_v25)
      = kval (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W5_arr m ρ c 6).trans ((Cert.CombineValue.arr1 (V4 m ρ) c).trans ?_)
  have k0 : W3 m ρ c (Proc.devRef .tc main_arg0) = m ((c : Thread nD τ).loc main_arg0) :=
    (take_keep_arg0 (W2 m ρ c)).trans (exit0_arg0 m ρ c)
  have k3 : W3 m ρ c (Proc.devRef .tc main_v3) = dst (m ((c : Thread nD τ).loc main_arg1)) :=
    (take_keep_v3 (W2 m ρ c)).trans (exit0_v3 m ρ c)
  have k2 : W3 m ρ c (Proc.devRef .tc main_arg2) = m ((c : Thread nD τ).loc main_arg2) :=
    (take_keep_arg2 (W2 m ρ c)).trans (exit0_arg2 m ρ c)
  have k5 : W3 m ρ c (Proc.devRef .tc main_arg5) = m ((c : Thread nD τ).loc main_arg5) :=
    (take_keep_arg5 (W2 m ρ c)).trans (exit0_arg5 m ρ c)
  have k6 : W3 m ρ c (Proc.devRef .tc main_arg6) = m ((c : Thread nD τ).loc main_arg6) :=
    (take_keep_arg6 (W2 m ρ c)).trans (exit0_arg6 m ρ c)
  have t6 : W3 m ρ c (Proc.devRef .tc main_v6)
      = takeRows (Cert.Spec.G0 (m ((c : Thread nD τ).loc main_arg0)) (m ((c : Thread nD τ).loc main_arg3))
          (biasRow (m ((c : Thread nD τ).loc main_arg4)))) (src (m ((c : Thread nD τ).loc main_arg1))) := by
    refine (take_v6 (W2 m ρ c)).trans ?_
    rw [exit0_y, exit0_v1]
  have a0 : V4 m ρ c main_arg0 = m ((c : Thread nD τ).loc main_arg0) := (stretch1_arg0 (W3 m ρ c)).trans k0
  have a12 : V4 m ρ c main_v12 = aggOf (Cert.Spec.G0 (m ((c : Thread nD τ).loc main_arg0)) (m ((c : Thread nD τ).loc main_arg3))
      (biasRow (m ((c : Thread nD τ).loc main_arg4)))) (src (m ((c : Thread nD τ).loc main_arg1))) (dst (m ((c : Thread nD τ).loc main_arg1)))
      (m ((c : Thread nD τ).loc main_arg2)) := by
    refine (stretch1_v12 (W3 m ρ c)).trans ?_
    rw [t6, k3, k2]
    rfl
  have a21 : V4 m ρ c main_v21 = invOf (degOf (dst (m ((c : Thread nD τ).loc main_arg1)))) := by
    refine (stretch1_v21 (W3 m ρ c)).trans ?_
    rw [k3]
  have a22 : V4 m ρ c main_v22 = wTop (m ((c : Thread nD τ).loc main_arg5)) := by
    refine (stretch1_v22 (W3 m ρ c)).trans ?_
    rw [k5]
  have a23 : V4 m ρ c main_v23 = wBot (m ((c : Thread nD τ).loc main_arg5)) := by
    refine (stretch1_v23 (W3 m ρ c)).trans ?_
    rw [k5]
  have a24 : V4 m ρ c main_v24 = biasRow (m ((c : Thread nD τ).loc main_arg6)) := by
    refine (stretch1_v24 (W3 m ρ c)).trans ?_
    rw [k6]
  rw [a0, a12, a21, a22, a23, a24]
  rfl

end Cert.KernelValue

end
-- ==== Proof.Messages.lean ====
/- The two programs' per-edge messages are one array when every source index names a row of the node table: the kernel reads the source's row of the already-transformed table, the reference transforms the gathered rows, and the layer acts on each row by itself. -/
import proofs.«411524_j59846074303161_3_alg».proof.Proof.KernelTerm
import proofs.«411524_j59846074303161_3_alg».proof.Proof.RefImports
import Idealize.ShloMosaic.Lib.Pipeline.Value
import Idealize.ShloMosaic.Lib.ValueIdx
import Idealize.ShloMosaic.Lib.ValueLayout
import Idealize.ShloMosaic.Lib.Affine
import Idealize.ShloMosaic.PureOps.Reduce
import Idealize.ShloMosaic.PureOps.Ideal.Laws

noncomputable section

open scoped BigOperators

namespace Cert.Messages

open Idealize.ShloMosaic Idealize.ShloMosaic.ValueIdx Cert.KernelTerm

section Helpers

open Cert.KernelIdeal Cert.KernelIdeal.Facts₀ Cert.KernelIdeal.Facts

/-! ## The source row of the edge list, and its words -/

/-- Entry e of the source vector is entry (0, e) of the edge list. -/
theorem src_apply (ei : IVec S2x1200000 32) (e : Fin 1200000) : src ei (ix1 e) = ei (ix2 (0 : Fin 2) e) := by
  have h : src ei = Cert.ReferenceIdeal.Read.val_main_v1 (F := Ideal) ei := rfl
  rw [h, Cert.ReferenceIdeal.Read.val_main_v1_apply, Cert.ReferenceIdeal.Read.val_main_v0_apply]
  congr 1
  funext a
  match a with
  | ⟨0, _⟩ => rfl
  | ⟨1, _⟩ => exact Fin.ext (Nat.mod_eq_of_lt e.isLt)

/-- A word that is nonnegative read signed is not below zero. -/
theorem not_slt_zero {a : BitVec 32} (h0 : 0 ≤ a.toInt) : IntOp.cmpi .slt a 0#32 = 0#1 :=
  eq_zero_of_ne_one fun h => by
    have h1 := IntOp.cmpi_slt.mp h
    have hz : (0#32 : BitVec 32).toInt = 0 := by decide
    omega

/-- A word that is nonnegative read signed is at least zero. -/
theorem sge_zero {a : BitVec 32} (h0 : 0 ≤ a.toInt) : IntOp.cmpi .sge a 0#32 = 1#1 := by
  have hz : (0#32 : BitVec 32).toInt = 0 := by decide
  exact IntOp.cmpi_sge.mpr (by omega)

/-- A word below 100000 read signed is at most 99999. -/
theorem sle_top {a : BitVec 32} (h1 : a.toInt < 100000) : IntOp.cmpi .sle a 99999#32 = 1#1 := by
  have hz : (99999#32 : BitVec 32).toInt = 99999 := by decide
  exact IntOp.cmpi_sle.mpr (by omega)

/-- A nonnegative index is not moved by the wrap: the wrapped index of edge e is the index itself. -/
theorem wrapped_apply (s : IVec S1200000 32) (e : Fin 1200000) (h0 : 0 ≤ (s (ix1 e)).toInt) :
    wrapped s (ix2 e (0 : Fin 1)) = s (ix1 e) := by
  unfold wrapped
  rw [broadcastInDim_apply _ bcast_S1200000_S1200000x1_0 _ (ix2 e (0 : Fin 1)) (ix1 e) (fun a => match a with
    | ⟨0, _⟩ => by show e.val = if (1200000 : Nat) = 1 then 0 else e.val; rw [if_neg (by decide)])]
  rw [select_apply]
  have hc : cmpi .slt s (broadcastInDim S1200000 ![] bcast_S_S1200000 (constantI S_ 32 0#32)) (ix1 e) = 0#1 := by
    show IntOp.cmpi .slt (s (ix1 e)) _ = 0#1
    rw [broadcastInDim_apply _ bcast_S_S1200000 _ (ix1 e) ix0 (fun a => a.elim0)]
    exact not_slt_zero h0
  rw [hc, select_zero]

/-! ## The range mask is all ones -/

/-- The conjunction of bits that are all one, started from one, is one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- With every index in [0, 100000), every edge's wrapped index names a row of the table. -/
theorem inRange_apply (s : IVec S1200000 32) (hs : ∀ e : Fin 1200000, 0 ≤ (s (ix1 e)).toInt ∧ (s (ix1 e)).toInt < 100000)
    (i : S1200000.Idx) : inRange s i = 1#1 := by
  unfold inRange
  rw [Host.reduce_eq_foldl]
  refine foldl_andi_ones _ (fun k => ?_) _
  obtain ⟨e, q, rfl⟩ : ∃ (e : Fin 1200000) (q : Fin 1), k = ix2 e q := ⟨k 0, k 1, eq_ix2 k⟩
  obtain rfl : q = 0 := Subsingleton.elim _ _
  show IntOp.andi (IntOp.cmpi .sge (wrapped s (ix2 e 0)) 0#32) (IntOp.cmpi .sle (wrapped s (ix2 e 0)) 99999#32) = 1#1
  rw [wrapped_apply s e (hs e).1, sge_zero (hs e).1, sle_top (hs e).2]
  rfl

/-- With every index in [0, 100000), no row is replaced by the fill value: the rows taken are the gathered rows. -/
theorem takeRows_apply (y : FVec Ideal S100000x64 .f32) (s : IVec S1200000 32)
    (hs : ∀ e : Fin 1200000, 0 ≤ (s (ix1 e)).toInt ∧ (s (ix1 e)).toInt < 100000) (i : S1200000x64.Idx) :
    takeRows y s i = Host.gather gather_S100000x64_S1200000x1_S1200000x64_1_0_n_n_0_1_164 y (wrapped s) i := by
  unfold takeRows
  rw [select_apply]
  have hm : broadcastInDim S1200000x64 ![0] bcast_S1200000_S1200000x64_0 (inRange s) i = 1#1 := by
    rw [broadcastInDim_apply _ bcast_S1200000_S1200000x64_0 _ i (ix1 (i 0)) (fun a => match a with
      | ⟨0, _⟩ => by show (i 0).val = if (1200000 : Nat) = 1 then 0 else (i 0).val; rw [if_neg (by decide)])]
    exact inRange_apply s hs _
  rw [hm, select_one]

/-! ## The row gather read at an index -/

/-- The row of the table a start index names: the index read signed and clamped into [0, 99999]. -/
def row (idx : IVec S1200000x1 32) (e : Fin 1200000) : Fin 100000 :=
  ⟨min (idx (ix2 e (0 : Fin 1))).toInt.toNat 99999, by omega⟩

/-- Entry (e, j) of the gathered rows of any table z is entry (row e, j) of z: on the collapsed axis the operand
    coordinate is the clamped start index, on the offset axis it is j. -/
theorem gather_apply (z : FVec Ideal S100000x64 .f32) (idx : IVec S1200000x1 32) (e : Fin 1200000) (j : Fin 64) :
    Host.gather gather_S100000x64_S1200000x1_S1200000x64_1_0_n_n_0_1_164 z idx (ix2 e j) = z (ix2 (row idx e) j) := by
  unfold Host.gather
  congr 1
  funext a
  refine Fin.ext ?_
  match a with
  | ⟨0, _⟩ =>
    show gather_S100000x64_S1200000x1_S1200000x64_1_0_n_n_0_1_164.start (ix2 e j) idx 0
      + gather_S100000x64_S1200000x1_S1200000x64_1_0_n_n_0_1_164.batchCoord (ix2 e j) 0
      + gather_S100000x64_S1200000x1_S1200000x64_1_0_n_n_0_1_164.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1200000x1_S1200000x64_1_0_n_n_0_1_164.startIndexMap from
      List.mem_singleton.mpr rfl)]
    have hsi : gather_S100000x64_S1200000x1_S1200000x64_1_0_n_n_0_1_164.siIdx (ix2 e j)
        ⟨List.idxOf (0 : Fin 2) gather_S100000x64_S1200000x1_S1200000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x64_S1200000x1_S1200000x64_1_0_n_n_0_1_164.start (ix2 e j) idx 1
      + gather_S100000x64_S1200000x1_S1200000x64_1_0_n_n_0_1_164.batchCoord (ix2 e j) 1
      + gather_S100000x64_S1200000x1_S1200000x64_1_0_n_n_0_1_164.offCoord (ix2 e j) 1 = _
    rw [GatherDims.batchCoord_eq_zero _ _ _ List.not_mem_nil]
    unfold GatherDims.start
    rw [dif_neg (show ¬ (1 : Fin 2) ∈ gather_S100000x64_S1200000x1_S1200000x64_1_0_n_n_0_1_164.startIndexMap by decide)]
    unfold GatherDims.offCoord
    rw [dif_pos (show (1 : Fin 2) ∈ gather_S100000x64_S1200000x1_S1200000x64_1_0_n_n_0_1_164.sKept by decide)]
    simp only [Nat.zero_add]
    rfl

/-! ## Gathering rows commutes with the row-wise layer -/

/-- The source rows of the rectified affine layer of the table are the rectified affine layer of the gathered source
    rows: at (e, j) both are max(Σ_k x[row e, k]·w[k, j] + b[j], 0), with the same row on the two sides. -/
theorem rows_eq (x : FVec Ideal S100000x64 .f32) (ei : IVec S2x1200000 32) (w : FVec Ideal S64x64 .f32)
    (b : FVec Ideal S64 .f32)
    (hsrc : ∀ e : Fin 1200000, 0 ≤ (ei (ix2 (0 : Fin 2) e)).toInt ∧ (ei (ix2 (0 : Fin 2) e)).toInt < 100000) :
    takeRows (Cert.Spec.G0 x w (biasRow b)) (src ei) = Cert.ReferenceIdeal.Read.val_main_v15 (F := Ideal) x ei w b := by
  have hs : ∀ e : Fin 1200000, 0 ≤ (src ei (ix1 e)).toInt ∧ (src ei (ix1 e)).toInt < 100000 := fun e => by
    rw [src_apply]; exact hsrc e
  funext i
  obtain ⟨e, j, rfl⟩ : ∃ (e : Fin 1200000) (j : Fin 64), i = ix2 e j := ⟨i 0, i 1, eq_ix2 i⟩
  rw [takeRows_apply _ _ hs, gather_apply, Cert.Spec.G0_apply]
  unfold Cert.Spec.mlpAt
  rw [Cert.ReferenceIdeal.Read.val_main_v15_apply, Cert.ReferenceIdeal.Read.val_main_v14_apply,
    Cert.ReferenceIdeal.Read.val_main_v11_apply, Cert.ReferenceIdeal.Read.val_main_v13_apply,
    Cert.ReferenceIdeal.Read.val_main_v12_apply, Cert.ReferenceIdeal.Read.val_main_call0_v0_apply,
    Cert.ReferenceIdeal.Read.val_main_call0_cst_apply]
  have hsum : ∀ k : Fin 64,
      Cert.ReferenceIdeal.Read.val_main_v10 (F := Ideal) x ei (Cert.ReferenceIdeal.Read.lidx_main_v11 (ix2 e j) k)
        * w (Cert.ReferenceIdeal.Read.ridx_main_v11 (ix2 e j) k)
      = x (ix2 (row (wrapped (src ei)) e) k) * w (ix2 k j) := fun k => by
    have hl : Cert.ReferenceIdeal.Read.lidx_main_v11 (ix2 e j) k = ix2 e k :=
      funext fun a => match a with | ⟨0, _⟩ => rfl | ⟨1, _⟩ => rfl
    have hr : Cert.ReferenceIdeal.Read.ridx_main_v11 (ix2 e j) k = ix2 k j :=
      funext fun a => match a with | ⟨0, _⟩ => rfl | ⟨1, _⟩ => rfl
    have hg : Cert.ReferenceIdeal.Read.val_main_v10 (F := Ideal) x ei
        = Host.gather gather_S100000x64_S1200000x1_S1200000x64_1_0_n_n_0_1_164 x (wrapped (src ei)) := rfl
    rw [hl, hr, hg, gather_apply]
  have hb : biasRow b (ix2 (0 : Fin 1) j)
      = b (Cert.ReferenceIdeal.Read.idx_main_v12 (Cert.ReferenceIdeal.Read.idx_main_v13 (ix2 e j))) := by
    have h : biasRow b = Cert.ReferenceIdeal.Read.val_main_v12 (F := Ideal) b := rfl
    rw [h, Cert.ReferenceIdeal.Read.val_main_v12_apply]
  rw [hb, Finset.sum_congr rfl fun k _ => hsum k]
  show max _ 0 = max _ (Ideal.ofBits .f32 0x00000000#32)
  rw [Ideal.ofBits_zero_f32]
  rfl

end Helpers

/-- With every source index in `[0, 100000)`, the kernel's messages — the source's row of the rectified affine layer of
    the node table, times the edge's weight — are the reference's: the rectified affine layer of the gathered source
    rows, times the edge's weight. -/
theorem msg_eq (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32)
    (hsrc : ∀ e : Fin 1200000, 0 ≤ (ei (ix2 (0 : Fin 2) e)).toInt ∧ (ei (ix2 (0 : Fin 2) e)).toInt < 100000) :
    msgOf (Cert.Spec.G0 x w (biasRow b)) (src ei) ew = Cert.ReferenceIdeal.Read.val_main_v18 (F := Ideal) x ei ew w b := by
  unfold msgOf
  rw [rows_eq x ei w b hsrc]
  rfl

end Cert.Messages

end
-- ==== Proof.Tail.lean ====
/- From the aggregated messages and the degrees on, the kernel's second stage and the reference compute one function: a product with 1/max(deg,1) is the quotient by max(deg,1), and the update layer over the concatenated features is the sum of its two halves. -/
import proofs.«411524_j59846074303161_3_alg».proof.Proof.KernelTerm
import proofs.«411524_j59846074303161_3_alg».proof.Proof.RefImports
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Mathlib.Algebra.BigOperators.Fin

noncomputable section

open scoped BigOperators

namespace Cert.Tail

open Idealize.ShloMosaic Idealize.ShloMosaic.ValueIdx Cert.KernelTerm

/-- The word of the float one is the extended real one. -/
theorem one_eq : Ideal.ofBits .f32 0x3F800000#32 = (1 : EReal) := Ideal.ofBits_one_f32

/-- A maximum with one is not zero. -/
theorem max_one_ne_zero (d : EReal) : max d (Ideal.ofBits .f32 0x3F800000#32) ≠ 0 := by
  rw [one_eq]
  exact ne_of_gt (lt_of_lt_of_le zero_lt_one (le_max_right d 1))

/-- A product with the quotient of one by a nonzero d is the quotient by d. -/
theorem mul_div_one (a d : EReal) (hd : d ≠ 0) :
    a * Ideal.div (Ideal.ofBits .f32 0x3F800000#32) d = Ideal.div a d := by
  unfold Ideal.div
  rw [if_neg hd, if_neg hd, one_eq, one_mul]

/-- A scalar constant spread over a vector reads as its word everywhere. -/
theorem bcast_const_read (h : Cert.KernelIdeal.S_.BroadcastsInDim Cert.KernelIdeal.S100000 (![] : Fin 0 → Fin Cert.KernelIdeal.S100000.rank))
    (bits : BitVec 32) (i : Cert.KernelIdeal.S100000.Idx) :
    broadcastInDim Cert.KernelIdeal.S100000 ![] h (constant (F := Ideal) Cert.KernelIdeal.S_ .f32 bits) i
      = Ideal.ofBits .f32 bits := by
  rw [broadcastInDim_apply _ h _ i (fun a => a.elim0) (fun a => a.elim0)]
  rfl

/-- The kernel's inverse-degree column at row r is one over max(deg r, 1). -/
theorem inv_read (D : FVec Ideal Cert.KernelIdeal.S100000 .f32) (r : Fin 100000) :
    invOf D (ix2 r (0 : Fin 1)) = Ideal.div (Ideal.ofBits .f32 0x3F800000#32) (max (D (ix1 r)) (Ideal.ofBits .f32 0x3F800000#32)) := by
  unfold invOf
  rw [broadcastInDim_apply _ _ _ (ix2 r (0 : Fin 1)) (ix1 r) (fun a => match a with
    | ⟨0, _⟩ => by show r.val = if (100000 : Nat) = 1 then 0 else r.val; rw [if_neg (by decide)])]
  show Ideal.div (broadcastInDim Cert.KernelIdeal.S100000 ![] _ (constant (F := Ideal) Cert.KernelIdeal.S_ .f32 0x3F800000#32) (ix1 r))
      (max (D (ix1 r)) (broadcastInDim Cert.KernelIdeal.S100000 ![] _ (constant (F := Ideal) Cert.KernelIdeal.S_ .f32 0x3F800000#32) (ix1 r))) = _
  rw [bcast_const_read]

open Cert.ReferenceIdeal.Read in
/-- The reference's degree-normalised aggregate at (r, k) is the aggregate over max(deg r, 1). -/
theorem v30_read (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (r : Fin 100000) (k : Fin 64) :
    val_main_v30 (F := Ideal) x ei ew w b (ix2 r k)
      = Ideal.div (val_main_v21 (F := Ideal) x ei ew w b (ix2 r k))
          (max (val_main_v25 (F := Ideal) ei (ix1 r)) (Ideal.ofBits .f32 0x3F800000#32)) := by
  rw [val_main_v30_apply, Ideal.hostDivf_def, val_main_v29_apply, val_main_v28_apply, val_main_v27_apply,
    Ideal.maximumf_def, val_main_v26_apply, val_main_cst_3_apply, Ideal.ofBits_def]
  have hi : idx_main_v28 (idx_main_v29 (ix2 r k)) = ix1 r := by
    funext a; match a with | ⟨0, _⟩ => rfl
  rw [hi]

open Cert.ReferenceIdeal.Read in
/-- Columns 0..63 of the concatenated features are the node table's. -/
theorem v31_left (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (r : Fin 100000) (q k : Fin 64) :
    val_main_v31 (F := Ideal) x ei ew w b (lidx_main_v32 (ix2 r q) (Fin.castAdd 64 k)) = x (ix2 r k) := by
  unfold val_main_v31
  exact concatenate_pair_apply_left (t := Cert.ReferenceIdeal.S100000x128) 1 x (val_main_v30 (F := Ideal) x ei ew w b) _
    (lidx_main_v32 (ix2 r q) (Fin.castAdd 64 k)) rfl (ix2 r k) (fun c => match c with
    | ⟨0, _⟩ => rfl
    | ⟨1, _⟩ => rfl)

open Cert.ReferenceIdeal.Read in
/-- Columns 64..127 of the concatenated features are the degree-normalised aggregate's. -/
theorem v31_right (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (r : Fin 100000) (q k : Fin 64) :
    val_main_v31 (F := Ideal) x ei ew w b (lidx_main_v32 (ix2 r q) (Fin.natAdd 64 k))
      = val_main_v30 (F := Ideal) x ei ew w b (ix2 r k) := by
  unfold val_main_v31
  exact concatenate_pair_apply_right (t := Cert.ReferenceIdeal.S100000x128) 1 x (val_main_v30 (F := Ideal) x ei ew w b) _
    (lidx_main_v32 (ix2 r q) (Fin.natAdd 64 k)) rfl rfl (ix2 r k) (fun c => match c with
    | ⟨0, _⟩ => fun _ => rfl
    | ⟨1, _⟩ => fun hc => absurd rfl hc)
    (by show k.val + 64 = 64 + k.val; omega)

open Cert.ReferenceIdeal.Read in
/-- The upper half of the update weight at (k, q) is the weight's row k. -/
theorem wTop_read (wu : FVec Ideal Cert.KernelIdeal.S128x64 .f32) (r : Fin 100000) (q k : Fin 64) :
    wTop wu (ix2 k q) = wu (ridx_main_v32 (ix2 r q) (Fin.castAdd 64 k)) := by
  unfold wTop
  exact extractStridedSlice_apply ![0, 0] wu _ (ix2 k q) (ridx_main_v32 (ix2 r q) (Fin.castAdd 64 k)) (fun c => match c with
    | ⟨0, _⟩ => by show k.val = 0 + k.val; omega
    | ⟨1, _⟩ => by show q.val = 0 + q.val; omega)

open Cert.ReferenceIdeal.Read in
/-- The lower half of the update weight at (k, q) is the weight's row 64 + k. -/
theorem wBot_read (wu : FVec Ideal Cert.KernelIdeal.S128x64 .f32) (r : Fin 100000) (q k : Fin 64) :
    wBot wu (ix2 k q) = wu (ridx_main_v32 (ix2 r q) (Fin.natAdd 64 k)) := by
  unfold wBot
  exact extractStridedSlice_apply ![64, 0] wu _ (ix2 k q) (ridx_main_v32 (ix2 r q) (Fin.natAdd 64 k)) (fun c => match c with
    | ⟨0, _⟩ => by show 64 + k.val = 64 + k.val; rfl
    | ⟨1, _⟩ => by show q.val = 0 + q.val; omega)

/-- The bias row at column q is the bias vector's entry q. -/
theorem bias_read (bu : FVec Ideal Cert.KernelIdeal.S64 .f32) (q : Fin 64) :
    biasRow bu (ix2 (0 : Fin 1) q) = bu (ix1 q) := by
  unfold biasRow
  exact broadcastInDim_apply _ _ bu (ix2 (0 : Fin 1) q) (ix1 q) (fun c => match c with
    | ⟨0, _⟩ => by show q.val = if (64 : Nat) = 1 then 0 else q.val; rw [if_neg (by decide)])

/-- A sum over 128 terms is the sum of its first 64 and its last 64. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

open Cert.ReferenceIdeal.Read in
/-- The reference's rectified update layer at (r, q) is the specification's, with the reference's own aggregate and degrees. -/
theorem pre_eq (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (wu : FVec Ideal Cert.KernelIdeal.S128x64 .f32)
    (bu : FVec Ideal Cert.KernelIdeal.S64 .f32) (r : Fin 100000) (q : Fin 64) :
    val_main_v36 (F := Ideal) x ei ew w b wu bu (ix2 r q)
      = Cert.Spec.updAt x (val_main_v21 (F := Ideal) x ei ew w b) (invOf (val_main_v25 (F := Ideal) ei))
          (wTop wu) (wBot wu) (biasRow bu) r q := by
  rw [val_main_v36_apply, Ideal.maximumf_def, val_main_v35_apply, Ideal.addf_def, val_main_v32_apply,
    val_main_v34_apply, val_main_v33_apply, val_main_call1_v0_apply, val_main_call1_cst_apply, Ideal.ofBits_def,
    Ideal.ofBits_zero_f32, sum_halves]
  unfold Cert.Spec.updAt
  have hb : idx_main_v33 (idx_main_v34 (ix2 r q)) = ix1 q := by
    funext a; match a with | ⟨0, _⟩ => rfl
  rw [hb, bias_read]
  have h1 : ∀ k : Fin 64,
      val_main_v31 (F := Ideal) x ei ew w b (lidx_main_v32 (ix2 r q) (Fin.castAdd 64 k)) * wu (ridx_main_v32 (ix2 r q) (Fin.castAdd 64 k))
        = x (ix2 r k) * wTop wu (ix2 k q) := fun k => by
    rw [v31_left, wTop_read wu r q k]
  have h2 : ∀ k : Fin 64,
      val_main_v31 (F := Ideal) x ei ew w b (lidx_main_v32 (ix2 r q) (Fin.natAdd 64 k)) * wu (ridx_main_v32 (ix2 r q) (Fin.natAdd 64 k))
        = (val_main_v21 (F := Ideal) x ei ew w b (ix2 r k) * invOf (val_main_v25 (F := Ideal) ei) (ix2 r (0 : Fin 1))) * wBot wu (ix2 k q) := fun k => by
    rw [v31_right, v30_read, wBot_read wu r q k, inv_read, mul_div_one _ _ (max_one_ne_zero _)]
  rw [Finset.sum_congr rfl (fun k _ => h1 k), Finset.sum_congr rfl (fun k _ => h2 k)]

open Cert.ReferenceIdeal.Read in
/-- The row-normalised update of the node table, with the reference's own aggregate and degree arrays as operands, is the
    reference's result. -/
theorem tail_eq (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (wu : FVec Ideal Cert.KernelIdeal.S128x64 .f32)
    (bu : FVec Ideal Cert.KernelIdeal.S64 .f32) :
    Cert.Spec.G1 x (Cert.ReferenceIdeal.Read.val_main_v21 (F := Ideal) x ei ew w b)
        (invOf (Cert.ReferenceIdeal.Read.val_main_v25 (F := Ideal) ei)) (wTop wu) (wBot wu) (biasRow bu)
      = Cert.ReferenceIdeal.Read.val_main_v44 (F := Ideal) x ei ew w b wu bu := by
  funext i
  obtain ⟨r, q, rfl⟩ : ∃ (r : Fin 100000) (q : Fin 64), i = ix2 r q := ⟨i 0, i 1, eq_ix2 i⟩
  rw [Cert.Spec.G1_apply]
  unfold Cert.Spec.outAt
  rw [val_main_v44_apply, Ideal.hostDivf_def, val_main_v43_apply, val_main_v42_apply, Ideal.maximumf_def,
    val_main_v40_apply, Ideal.hostUnary_sqrt_def, val_main_v39_apply, val_main_v38_apply, val_main_cst_4_apply,
    Ideal.ofBits_def, Ideal.ofBits_zero_f32, zero_add, val_main_v41_apply, val_main_cst_5_apply, Ideal.ofBits_def]
  have hr : idx_main_v39 (idx_main_v43 (ix2 r q)) = ix1 r := by
    funext a; match a with | ⟨0, _⟩ => rfl
  rw [hr]
  have hs : ∀ j : Fin 64,
      val_main_v37 (F := Ideal) x ei ew w b wu bu (idx_main_v38 (ix1 r) j)
        = Cert.Spec.updAt x (val_main_v21 (F := Ideal) x ei ew w b) (invOf (val_main_v25 (F := Ideal) ei))
            (wTop wu) (wBot wu) (biasRow bu) r j
          * Cert.Spec.updAt x (val_main_v21 (F := Ideal) x ei ew w b) (invOf (val_main_v25 (F := Ideal) ei))
            (wTop wu) (wBot wu) (biasRow bu) r j := fun j => by
    have hj : idx_main_v38 (ix1 r) j = ix2 r j := by
      funext a; match a with | ⟨0, _⟩ => rfl | ⟨1, _⟩ => rfl
    rw [hj, val_main_v37_apply, Ideal.mulf_def, pre_eq]
  rw [Finset.sum_congr rfl (fun j _ => hs j), pre_eq]

end Cert.Tail

end
-- ==== Proof.Bridge.lean ====
/-
  The kernel program's value and the reference's are one function of the arguments when every source index names a row of
  the node table. The messages agree edge by edge; summing equal messages into the same destination rows gives equal
  aggregates, and the degrees are the same term; from the aggregates and the degrees on the two programs agree on all
  extended reals.
-/
import proofs.«411524_j59846074303161_3_alg».proof.Proof.KernelTerm
import proofs.«411524_j59846074303161_3_alg».proof.Proof.Messages
import proofs.«411524_j59846074303161_3_alg».proof.Proof.Tail
import proofs.«411524_j59846074303161_3_alg».proof.Proof.RefImports

noncomputable section

namespace Cert.Bridge

open Idealize.ShloMosaic Idealize.ShloMosaic.ValueIdx Cert.KernelTerm

/-- The aggregate: the reference sums its messages into the destination rows from a zero table, the kernel program its
    own messages, which are the same array. -/
theorem agg_eq (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32)
    (hsrc : ∀ e : Fin 1200000, 0 ≤ (ei (ix2 (0 : Fin 2) e)).toInt ∧ (ei (ix2 (0 : Fin 2) e)).toInt < 100000) :
    aggOf (Cert.Spec.G0 x w (biasRow b)) (src ei) (dst ei) ew = Cert.ReferenceIdeal.Read.val_main_v21 (F := Ideal) x ei ew w b := by
  unfold aggOf
  rw [Cert.Messages.msg_eq x ei ew w b hsrc]
  rfl

/-- The degrees: the same sum of ones into the destination rows in both programs. -/
theorem deg_eq (ei : IVec Cert.KernelIdeal.S2x1200000 32) :
    degOf (dst ei) = Cert.ReferenceIdeal.Read.val_main_v25 (F := Ideal) ei := rfl

/-- The kernel program's value is the reference's result, as functions of the arguments. -/
theorem kval_eq_ref (x : FVec Ideal Cert.KernelIdeal.S100000x64 .f32) (ei : IVec Cert.KernelIdeal.S2x1200000 32)
    (ew : FVec Ideal Cert.KernelIdeal.S1200000 .f32) (w : FVec Ideal Cert.KernelIdeal.S64x64 .f32)
    (b : FVec Ideal Cert.KernelIdeal.S64 .f32) (wu : FVec Ideal Cert.KernelIdeal.S128x64 .f32)
    (bu : FVec Ideal Cert.KernelIdeal.S64 .f32)
    (hsrc : ∀ e : Fin 1200000, 0 ≤ (ei (ix2 (0 : Fin 2) e)).toInt ∧ (ei (ix2 (0 : Fin 2) e)).toInt < 100000) :
    kval x ei ew w b wu bu = Cert.ReferenceIdeal.Read.val_main_v44 (F := Ideal) x ei ew w b wu bu := by
  unfold kval
  rw [agg_eq x ei ew w b hsrc, deg_eq ei]
  exact Cert.Tail.tail_eq x ei ew w b wu bu

end Cert.Bridge

end
-- ==== Proof.SourceRange.lean ====
/- The precondition read back: where it holds, every entry of the edge list's first row lies in [0, 100000). -/
import proofs.«411524_j59846074303161_3_alg».proof.Pre_finite_inputs
import proofs.«411524_j59846074303161_3_alg».proof.Proof.Gen.Pre_finite_inputs
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Ideal

noncomputable section

namespace Cert.SourceRange

open Idealize.ShloMosaic Idealize.ShloMosaic.ValueIdx

/-- The rank-0 shape has exactly one index: a reduction over every axis lands there. -/
instance : Subsingleton Cert.Pre_finite_inputs.S_.Idx := ⟨fun a b => funext fun d => d.elim0⟩

/-- An elementwise conjunction of two masks that is 1 at an index has both masks 1 there. -/
theorem and_at {s : Shape} (a b : IVec s 1) (i : s.Idx) (h : andi a b i = 1#1) : a i = 1#1 ∧ b i = 1#1 :=
  IntOp.andi_eq_one.1 h

open Cert.Pre_finite_inputs in
/-- Row 0 of the [2 × 1200000] edge list, sliced out as a [1 × 1200000] rectangle and flattened to a vector, read at
    position e is the edge list's entry (0, e): the flattening keeps the row-major position, 0 · 1200000 + e = e, and the
    slice starts at offset (0, 0). -/
theorem row0_apply (ei : IVec S2x1200000 32) (hs : S2x1200000.Slices ![0, 0] S1x1200000) (hc : S1x1200000.ShapeCasts S1200000)
    (e : Fin 1200000) :
    shapeCast S1200000 (extractStridedSlice S1x1200000 ![0, 0] ei hs) hc (ix1 e) = ei (ix2 (0 : Fin 2) e) := by
  rw [shapeCast_apply _ hc (ix1 e) (ix2 (0 : Fin 1) e) (by rw [Shape.rowMajor_val_two, Shape.rowMajor_val_one]; simp)]
  refine extractStridedSlice_apply _ ei hs _ _ fun a => ?_
  match a with
  | ⟨0, _⟩ => rfl
  | ⟨1, _⟩ => simp

/-- Where the precondition is all ones, every source index is a row of the node table: `0 ≤ src[e] < 100000`. -/
theorem src_in_range (x : FVec Ideal Cert.Pre_finite_inputs.S100000x64 .f32) (ei : IVec Cert.Pre_finite_inputs.S2x1200000 32)
    (ew : FVec Ideal Cert.Pre_finite_inputs.S1200000 .f32) (w : FVec Ideal Cert.Pre_finite_inputs.S64x64 .f32)
    (b : FVec Ideal Cert.Pre_finite_inputs.S64 .f32) (wu : FVec Ideal Cert.Pre_finite_inputs.S128x64 .f32)
    (bu : FVec Ideal Cert.Pre_finite_inputs.S64 .f32)
    (h : Cert.Pre_finite_inputs.fn (F := Ideal) x ei ew w b wu bu = fun _ => 1#1) :
    ∀ e : Fin 1200000, 0 ≤ (ei (ix2 (0 : Fin 2) e)).toInt ∧ (ei (ix2 (0 : Fin 2) e)).toInt < 100000 := by
  intro e
  -- the precondition at its one index: a left-nested conjunction of seven "all" reductions
  have h0 := congrFun h ix0
  simp only [Cert.Pre_finite_inputs.fn, Cert.Pre_finite_inputs.fn_part1, Cert.Pre_finite_inputs.fn_part2] at h0
  -- the innermost left conjunct is the "all" over the 1200000 range tests of row 0
  have h7 := (and_at _ _ _ (and_at _ _ _ (and_at _ _ _ (and_at _ _ _ (and_at _ _ _ (and_at _ _ _ h0).1).1).1).1).1).1
  -- an "all" that is 1 had a 1 at every position, in particular at e
  have h6 := Host.reduce_andi_all _ _ _ _ _ h7 (ix1 e)
  -- the test at e is (src[e] ≥ 0) and (src[e] < 100000), both signed, each against a scalar broadcast along the vector
  obtain ⟨hge, hlt⟩ := and_at _ _ _ h6
  have hge' : IntOp.cmpi .sge (ei (ix2 (0 : Fin 2) e)) 0#32 = 1#1 := by
    rw [← row0_apply ei _ _ e]; exact hge
  have hlt' : IntOp.cmpi .slt (ei (ix2 (0 : Fin 2) e)) 100000#32 = 1#1 := by
    rw [← row0_apply ei _ _ e]; exact hlt
  -- a signed comparison word that is 1 orders the signed values; the two literals read 0 and 100000
  rw [IntOp.cmpi_sge, show (0#32 : BitVec 32).toInt = 0 from by decide] at hge'
  rw [IntOp.cmpi_slt, show (100000#32 : BitVec 32).toInt = 100000 from by decide] at hlt'
  exact ⟨hge', hlt'⟩

end Cert.SourceRange

end
-- ==== Proof.lean ====
/-
  The certificate of a message-passing layer on a graph of 100000 nodes and 1200000 edges, against its plain reference,
  over extended reals, where every float input is finite and every source index of the edge list names a node.

  The reference gathers the source rows of the node table, applies an affine layer and a rectifier to each gathered row,
  scales by the edge's weight, sums the messages into their destination rows, divides by the degree bounded below by 1,
  concatenates with the node's own features, applies a second affine layer and a rectifier, and divides each row by its
  Euclidean norm bounded below. The kernel program applies the first layer ONCE PER NODE in a first kernel and then takes
  the source rows of its output: the layer acts on each row by itself, so taking rows commutes with it. Taking a row
  fills it with a fixed value when its index is outside the table, where the reference's gather clamps the index: this is
  where the range of the source indices is used, and nowhere else. A second kernel multiplies the aggregate by
  1 / max(deg, 1) — the quotient by max(deg, 1), which is never zero — and applies the second layer as the sum of its two
  halves, which is the layer over the concatenation because a finite sum may be split at any point. The rest is the same
  operations on both sides.

  The frames of the two kernel programs are the generated ones; the reference's frame is its generated run with the result
  dropped. Nothing was rewritten by the idealization, so there is nothing to preserve.
-/
import proofs.«411524_j59846074303161_3_alg».proof.Defs
import proofs.«411524_j59846074303161_3_alg».proof.Proof.Gen.Kernel
import proofs.«411524_j59846074303161_3_alg».proof.Proof.Gen.Kernel.Skeleton
import proofs.«411524_j59846074303161_3_alg».proof.Proof.Gen.Kernel.Launch
import proofs.«411524_j59846074303161_3_alg».proof.Proof.Gen.Kernel.Points
import proofs.«411524_j59846074303161_3_alg».proof.Proof.Gen.Kernel.Frame
import proofs.«411524_j59846074303161_3_alg».proof.Proof.Gen.KernelIdeal
import proofs.«411524_j59846074303161_3_alg».proof.Proof.Gen.KernelIdeal.Skeleton
import proofs.«411524_j59846074303161_3_alg».proof.Proof.Gen.KernelIdeal.Launch
import proofs.«411524_j59846074303161_3_alg».proof.Proof.Gen.KernelIdeal.Points
import proofs.«411524_j59846074303161_3_alg».proof.Proof.Gen.KernelIdeal.Frame
import proofs.«411524_j59846074303161_3_alg».proof.Proof.Gen.ReferenceIdeal
import proofs.«411524_j59846074303161_3_alg».proof.Proof.Gen.Pre_finite_inputs
import proofs.«411524_j59846074303161_3_alg».proof.Proof.RefImports
import proofs.«411524_j59846074303161_3_alg».proof.Proof.KernelRun
import proofs.«411524_j59846074303161_3_alg».proof.Proof.KernelValue
import proofs.«411524_j59846074303161_3_alg».proof.Proof.Bridge
import proofs.«411524_j59846074303161_3_alg».proof.Proof.SourceRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's function of the arguments: the kernel program because its value is that function
    where the source indices are in range (which the precondition says), the reference by its run. -/
theorem algebraic : Cert.algebraic_KernelIdeal_ReferenceIdeal := by
  intro m ρ m' ρ' hpre hagree
  refine ⟨fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.ValueRun.run_value (F := Ideal) m ρ)
    rw [Cert.KernelValue.kernel_value m ρ c]
    exact Cert.Bridge.kval_eq_ref _ _ _ _ _ _ _ (Cert.SourceRange.src_in_range _ _ _ _ _ _ _ (hpre c))
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v44_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
